-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S256x256 .f32) (main_arg3 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S128x256 : Shape := ⟨2, ![128, 256]⟩
abbrev S1x256 : Shape := ⟨2, ![1, 256]⟩
abbrev S10000x256 : Shape := ⟨2, ![10000, 256]⟩
abbrev S400x128 : Shape := ⟨2, ![400, 128]⟩
abbrev S400x10000 : Shape := ⟨2, ![400, 10000]⟩
abbrev S400x256 : Shape := ⟨2, ![400, 256]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S128x256, .f32⟩
  | .hbm, ⟨5, _⟩ => ⟨S128x256, .f32⟩
  | .hbm, ⟨6, _⟩ => ⟨S1x256, .f32⟩
  | .hbm, ⟨7, _⟩ => ⟨S10000x256, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S10000x128, .f32⟩
  | .local _ .vmem, ⟨5, _⟩ => ⟨S128x256, .f32⟩
  | .local _ .vmem, ⟨6, _⟩ => ⟨S128x256, .f32⟩
  | .local _ .vmem, ⟨7, _⟩ => ⟨S1x256, .f32⟩
  | .local _ .vmem, ⟨8, _⟩ => ⟨S400x256, .f32⟩
  | .local _ .vmem, ⟨9, _⟩ => ⟨S400x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x256_S128x256_0_0 : S256x256.Slices ![0, 0] S128x256
  slices_S256x256_S128x256_128_0 : S256x256.Slices ![128, 0] S128x256
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S10000x256 : Shape := ⟨2, ![10000, 256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x128, .f32⟩
  | .hbm, ⟨5, _⟩ => ⟨S10000x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x10000_S10000x128_S10000x128_1_0_0_1_n_n_wf : DotDims.WF S10000x10000 S10000x128 S10000x128 [1] [0] [0] [1] [] []
  dot_S10000x256_S256x256_S10000x256_1_0_0_1_n_n_wf : DotDims.WF S10000x256 S256x256 S10000x256 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KFrame.lean ====
/-
  The frame of the graph-convolution kernel's program: @main slices the weights into their two halves, reshapes the
  bias, and launches ONE pipelined region over 25 grid points; point t is handed rows 400t … 400t+399 of the features
  and of the adjacency, the WHOLE feature array, the two weight halves and the bias, and writes rows 400t … 400t+399 of
  the result. The feature array reaches the region through TWO input windows (its row block, and all of it), so the
  array's full share is dealt between them in halves; nothing else distinguishes this launch from one over distinct
  arrays. Stated for every float instance: the same text serves the word-level program and its idealization.

  Contents: the arrays as the region finds them (after the three host operations); each window's block at a point;
  what the body leaves in the output window's buffer as a function of the six input blocks (its one store, over the
  skeleton's payload); the body's triple; the proof data; the body obligation at a symbolic point; the launch; the
  run's post (every windowed array at what the proof data computes, every other argument untouched); the frame claim.
-/
import proofs.«169192_g30348238914072_cont_9to1_1777_11_alg».proof.Proof.Gen.Kernel.Launch
import proofs.«169192_g30348238914072_cont_9to1_1777_11_alg».proof.Proof.Gen.Kernel.Skeleton
import proofs.«169192_g30348238914072_cont_9to1_1777_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two slices of the weights and the
    reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is its three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved and the body left the block in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (unfetched, the block index has not moved and the body left the block in place). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (unfetched, the block index has not moved and the body left the block in place). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (unfetched, the block index has not moved and the body left the block in place). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (unfetched, the block index has not moved and the body left the block in place). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (unfetched, the block index has not moved and the body left the block in place). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S400x128 := Rect.unit (s := S400x128) ![0, 0] S400x128.size Facts₀.inb_S400x128_S400x128_0_0
abbrev rA : Rect S400x10000 := Rect.unit (s := S400x10000) ![0, 0] S400x10000.size Facts₀.inb_S400x10000_S400x10000_0_0
abbrev rF : Rect S10000x128 := Rect.unit (s := S10000x128) ![0, 0] S10000x128.size Facts₀.inb_S10000x128_S10000x128_0_0
abbrev rW : Rect S128x256 := Rect.unit (s := S128x256) ![0, 0] S128x256.size Facts₀.inb_S128x256_S128x256_0_0
abbrev rB : Rect S1x256 := Rect.unit (s := S1x256) ![0, 0] S1x256.size Facts₀.inb_S1x256_S1x256_0_0
abbrev rO : Rect S400x256 := Rect.unit (s := S400x256) ![0, 0] S400x256.size Facts₀.inb_S400x256_S400x256_0_0

/-! ## What the body leaves in the output window's buffer -/

/-- The output window's buffer after the body, from the six input windows' blocks (in window order: the row block of
    the features, the row block of the adjacency, all the features, the two weight halves, the bias): its one store,
    of the skeleton's payload over the loaded blocks. -/
def outBlk (x0 : Vec F S400x128 .f32) (x1 : Vec F S400x10000 .f32) (x2 : Vec F S10000x128 .f32) (x3 : Vec F S128x256 .f32)
    (x4 : Vec F S128x256 .f32) (x5 : Vec F S1x256 .f32) : Vec F S400x256 .f32 :=
  View.canon [⟨rO, k0_pay1 (View.ld x1 rA) (View.ld x2 rF) (View.ld x0 rX) (View.ld x3 rW) (View.ld x4 rW) (View.ld x5 rB)⟩]

/-- The one store covers the buffer. -/
theorem coverO (p0 : Vec F S400x256 .f32) (y : S400x256.Idx) :
    ∃ pc ∈ ([⟨rO, p0⟩] : List (View.Piece (Elt F) S400x256 .f32)), y ∈ pc.1.set :=
  View.cover_of_tiled [⟨rO, p0⟩] S400x256.size (by rfl) y

/-! ## The body's triple -/

set_option maxHeartbeats 1000000 in
/-- The kernel body on whole staging memrefs, the inputs' at read contents `xW` and the output's at anything, runs to
    the continuation holding the inputs' as they were and the output's at `outBlk` of the inputs'. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x256 .f32) (harg4 : arg4.IsWhole)
    (arg5 : Memref sig .tc .vmem S128x256 .f32) (harg5 : arg5.IsWhole) (arg6 : Memref sig .tc .vmem S1x256 .f32) (harg6 : arg6.IsWhole)
    (arg7 : Memref sig .tc .vmem S400x256 .f32) (harg7 : arg7.IsWhole)
    (x0 : Vec F S400x128 .f32) (x1 : Vec F S400x10000 .f32) (x2 : Vec F S10000x128 .f32) (x3 : Vec F S128x256 .f32)
    (x4 : Vec F S128x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

/-! ## The pipeline's proof data -/

/-- The proof data of the pipeline on core `c`: the arrays as the region finds them; after the body at point `t` each
    input's buffer still at its block and the output's at `outBlk` of the six input blocks; the invariant the scoped rest, untouched; nothing owed. The two windows on the feature array hold it at the two halves
    of the full share; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation, at a symbolic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR sig nD τ := initOf (Pipeline.cells cfgs cellOf_inj) (Pipeline.launchToks cfgs cellOf_inj)

/-- The six distinct buffers behind the seven windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_arg1, main_v0, main_v1, main_v2, main_v3] (by decide) (by decide) _

/-- The seven windows' arrays as the proof data holds them: the feature array twice, at the two halves of its share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg1) ↦{fullShare} G 1)
          ∗ (((c : Thread nD τ).loc main_arg0) ↦{fullShare.right} G 2) ∗ (((c : Thread nD τ).loc main_v0) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W0, (arr_whole0 0).set_eq_univ, (arr_whole0 1).set_eq_univ, (arr_whole0 3).set_eq_univ,
    (arr_whole0 4).set_eq_univ, (arr_whole0 5).set_eq_univ, (arr_whole0 6).set_eq_univ]
  rfl

/-- The buffers behind the arrays, whole at the region-entry contents, make the proof data's arrays at entry: the
    feature array's full share is its two halves, one for each window on it; every other array is one window's. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1, H2, H3, H4, H5⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  isplitl [H3]; · iexact H3
  isplitl [H4]; · iexact H4
  iexact H5

/-- The invariant is the scoped rest at every point. -/
theorem phi_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := by
  dsimp only [dats]

/-- The buffers that bypass the region are kept aside whole; the kernel routes none of them itself. -/
theorem hX (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  · iexact H

/-- Before the first point the invariant is what the launch hands over, -/
theorem hin (c : Dev nD) :
    iprop(emp ∗ (Pipeline.scopedRest (Ix := Unit) (Name := ℕ) (U := UR sig nD τ) (Lvl := ℕ) (Val := Elt F) spec0 c : sProp 𝕄))
      ⊢ (dats m 0 c).Φ 0 := by
  rw [phi_eq]
  iintro ⟨-, H⟩
  iexact H

/-- and after the last point it gives the same back. -/
theorem hout (c : Dev nD) :
    (dats m 0 c).Φ (Fin.last cfg0.N)
      ⊢ iprop(emp ∗ (Pipeline.scopedRest (Ix := Unit) (Name := ℕ) (U := UR sig nD τ) (Lvl := ℕ) (Val := Elt F) spec0 c : sProp 𝕄)) := by
  rw [phi_eq]
  iintro H
  isplitr
  · iempintro
  · iexact H

/-- The bypassing buffers are read back at the end as the region found them. -/
theorem hY (c : Dev nD) (s' : Phys nD τ sig (Elt F)) :
    iprop(emp ∗ (Pipeline.unscopedRest (Ix := Unit) (Name := ℕ) (U := UR sig nD τ) (Lvl := ℕ) spec0 c (V m c) : sProp 𝕄) ∗ SI s')
      ⊢ |={Set.univ}=> iprop(⌜∀ b ∈ Pipeline.restRefs sig spec0, s'.mem.mem ((c : Thread nD τ).loc b) = V m c b⌝ ∗ SI s') := by
  iintro ⟨-, HU, HSI⟩
  unfold Pipeline.unscopedRest
  imodintro
  iapply (pointsTo_read_all (Pipeline.restRefs sig spec0) (fun b => (c : Thread nD τ).loc b) (V m c) s')
  isplitl [HU] <;> iassumption

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every windowed array at what the proof data computes (an input
    its entry contents, the result its entry contents overwritten block by block by what the body left) and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX m) (hin := hin m) (hout := hout m)
    (QY := fun c s => ∀ b ∈ Pipeline.restRefs sig spec0, s.mem ((c : Thread nD τ).loc b) = V m c b)
    (hY := hY m)
    (hQ := fun s h => h)

/-- info: 'Cert.Kernel.Fr.run_main' depends on axioms: [propext, Classical.choice, Quot.sound] -/
#guard_msgs in #print axioms run_main

/-! ## The frame -/

/-- The four argument arrays end as they began: the features and the adjacency are input windows' arrays, which the
    pipeline never writes; the weights and the bias bypass the region; and no host operation writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Fr

end
-- ==== Proof.KIFrame.lean ====
/-
  The frame of the graph-convolution kernel's program: @main slices the weights into their two halves, reshapes the
  bias, and launches ONE pipelined region over 25 grid points; point t is handed rows 400t … 400t+399 of the features
  and of the adjacency, the WHOLE feature array, the two weight halves and the bias, and writes rows 400t … 400t+399 of
  the result. The feature array reaches the region through TWO input windows (its row block, and all of it), so the
  array's full share is dealt between them in halves; nothing else distinguishes this launch from one over distinct
  arrays. Stated for every float instance: the same text serves the word-level program and its idealization.

  Contents: the arrays as the region finds them (after the three host operations); each window's block at a point;
  what the body leaves in the output window's buffer as a function of the six input blocks (its one store, over the
  skeleton's payload); the body's triple; the proof data; the body obligation at a symbolic point; the launch; the
  run's post (every windowed array at what the proof data computes, every other argument untouched); the frame claim.
-/
import proofs.«169192_g30348238914072_cont_9to1_1777_11_alg».proof.Proof.Gen.KernelIdeal.Launch
import proofs.«169192_g30348238914072_cont_9to1_1777_11_alg».proof.Proof.Gen.KernelIdeal.Skeleton
import proofs.«169192_g30348238914072_cont_9to1_1777_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two slices of the weights and the
    reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is its three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved and the body left the block in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or
    not (unfetched, the block index has not moved and the body left the block in place). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or
    not (unfetched, the block index has not moved and the body left the block in place). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or
    not (unfetched, the block index has not moved and the body left the block in place). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or
    not (unfetched, the block index has not moved and the body left the block in place). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or
    not (unfetched, the block index has not moved and the body left the block in place). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S400x128 := Rect.unit (s := S400x128) ![0, 0] S400x128.size Facts₀.inb_S400x128_S400x128_0_0
abbrev rA : Rect S400x10000 := Rect.unit (s := S400x10000) ![0, 0] S400x10000.size Facts₀.inb_S400x10000_S400x10000_0_0
abbrev rF : Rect S10000x128 := Rect.unit (s := S10000x128) ![0, 0] S10000x128.size Facts₀.inb_S10000x128_S10000x128_0_0
abbrev rW : Rect S128x256 := Rect.unit (s := S128x256) ![0, 0] S128x256.size Facts₀.inb_S128x256_S128x256_0_0
abbrev rB : Rect S1x256 := Rect.unit (s := S1x256) ![0, 0] S1x256.size Facts₀.inb_S1x256_S1x256_0_0
abbrev rO : Rect S400x256 := Rect.unit (s := S400x256) ![0, 0] S400x256.size Facts₀.inb_S400x256_S400x256_0_0

/-! ## What the body leaves in the output window's buffer -/

/-- The output window's buffer after the body, from the six input windows' blocks (in window order: the row block of
    the features, the row block of the adjacency, all the features, the two weight halves, the bias): its one store,
    of the skeleton's payload over the loaded blocks. -/
def outBlk (x0 : Vec F S400x128 .f32) (x1 : Vec F S400x10000 .f32) (x2 : Vec F S10000x128 .f32) (x3 : Vec F S128x256 .f32)
    (x4 : Vec F S128x256 .f32) (x5 : Vec F S1x256 .f32) : Vec F S400x256 .f32 :=
  View.canon [⟨rO, k0_pay1 (View.ld x1 rA) (View.ld x2 rF) (View.ld x0 rX) (View.ld x3 rW) (View.ld x4 rW) (View.ld x5 rB)⟩]

/-- The one store covers the buffer. -/
theorem coverO (p0 : Vec F S400x256 .f32) (y : S400x256.Idx) :
    ∃ pc ∈ ([⟨rO, p0⟩] : List (View.Piece (Elt F) S400x256 .f32)), y ∈ pc.1.set :=
  View.cover_of_tiled [⟨rO, p0⟩] S400x256.size (by rfl) y

/-! ## The body's triple -/

set_option maxHeartbeats 1000000 in
/-- The kernel body on whole staging memrefs, the inputs' at read contents `xW` and the output's at anything, runs to
    the continuation holding the inputs' as they were and the output's at `outBlk` of the inputs'. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x256 .f32) (harg4 : arg4.IsWhole)
    (arg5 : Memref sig .tc .vmem S128x256 .f32) (harg5 : arg5.IsWhole) (arg6 : Memref sig .tc .vmem S1x256 .f32) (harg6 : arg6.IsWhole)
    (arg7 : Memref sig .tc .vmem S400x256 .f32) (harg7 : arg7.IsWhole)
    (x0 : Vec F S400x128 .f32) (x1 : Vec F S400x10000 .f32) (x2 : Vec F S10000x128 .f32) (x3 : Vec F S128x256 .f32)
    (x4 : Vec F S128x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

/-! ## The pipeline's proof data -/

/-- The proof data of the pipeline on core `c`: the arrays as the region finds them; after the body at point `t` each
    input's buffer still at its block and the output's at `outBlk` of the six input blocks; the invariant the scoped rest, untouched; nothing owed. The two windows on the feature array hold it at the two halves
    of the full share; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation, at a symbolic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR sig nD τ := initOf (Pipeline.cells cfgs cellOf_inj) (Pipeline.launchToks cfgs cellOf_inj)

/-- The six distinct buffers behind the seven windows' arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_arg1, main_v0, main_v1, main_v2, main_v3] (by decide) (by decide) _

/-- The seven windows' arrays as the proof data holds them: the feature array twice, at the two halves of its share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg1) ↦{fullShare} G 1)
          ∗ (((c : Thread nD τ).loc main_arg0) ↦{fullShare.right} G 2) ∗ (((c : Thread nD τ).loc main_v0) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W0, (arr_whole0 0).set_eq_univ, (arr_whole0 1).set_eq_univ, (arr_whole0 3).set_eq_univ,
    (arr_whole0 4).set_eq_univ, (arr_whole0 5).set_eq_univ, (arr_whole0 6).set_eq_univ]
  rfl

/-- The buffers behind the arrays, whole at the region-entry contents, make the proof data's arrays at entry: the
    feature array's full share is its two halves, one for each window on it; every other array is one window's. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1, H2, H3, H4, H5⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  isplitl [H3]; · iexact H3
  isplitl [H4]; · iexact H4
  iexact H5

/-- The invariant is the scoped rest at every point. -/
theorem phi_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := by
  dsimp only [dats]

/-- The buffers that bypass the region are kept aside whole; the kernel routes none of them itself. -/
theorem hX (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  · iexact H

/-- Before the first point the invariant is what the launch hands over, -/
theorem hin (c : Dev nD) :
    iprop(emp ∗ (Pipeline.scopedRest (Ix := Unit) (Name := ℕ) (U := UR sig nD τ) (Lvl := ℕ) (Val := Elt F) spec0 c : sProp 𝕄))
      ⊢ (dats m 0 c).Φ 0 := by
  rw [phi_eq]
  iintro ⟨-, H⟩
  iexact H

/-- and after the last point it gives the same back. -/
theorem hout (c : Dev nD) :
    (dats m 0 c).Φ (Fin.last cfg0.N)
      ⊢ iprop(emp ∗ (Pipeline.scopedRest (Ix := Unit) (Name := ℕ) (U := UR sig nD τ) (Lvl := ℕ) (Val := Elt F) spec0 c : sProp 𝕄)) := by
  rw [phi_eq]
  iintro H
  isplitr
  · iempintro
  · iexact H

/-- The bypassing buffers are read back at the end as the region found them. -/
theorem hY (c : Dev nD) (s' : Phys nD τ sig (Elt F)) :
    iprop(emp ∗ (Pipeline.unscopedRest (Ix := Unit) (Name := ℕ) (U := UR sig nD τ) (Lvl := ℕ) spec0 c (V m c) : sProp 𝕄) ∗ SI s')
      ⊢ |={Set.univ}=> iprop(⌜∀ b ∈ Pipeline.restRefs sig spec0, s'.mem.mem ((c : Thread nD τ).loc b) = V m c b⌝ ∗ SI s') := by
  iintro ⟨-, HU, HSI⟩
  unfold Pipeline.unscopedRest
  imodintro
  iapply (pointsTo_read_all (Pipeline.restRefs sig spec0) (fun b => (c : Thread nD τ).loc b) (V m c) s')
  isplitl [HU] <;> iassumption

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every windowed array at what the proof data computes (an input
    its entry contents, the result its entry contents overwritten block by block by what the body left) and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX m) (hin := hin m) (hout := hout m)
    (QY := fun c s => ∀ b ∈ Pipeline.restRefs sig spec0, s.mem ((c : Thread nD τ).loc b) = V m c b)
    (hY := hY m)
    (hQ := fun s h => h)

/-- info: 'Cert.KernelIdeal.Fr.run_main' depends on axioms: [propext, Classical.choice, Quot.sound] -/
#guard_msgs in #print axioms run_main

/-! ## The frame -/

/-- The four argument arrays end as they began: the features and the adjacency are input windows' arrays, which the
    pipeline never writes; the weights and the bias bypass the region; and no host operation writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Fr

end
-- ==== Proof.Spec.lean ====
/-
  The graph-convolution layer as one function of its four argument arrays, index by index, on the extended reals:

      out[r, h] = max( Σ_{d<128} x[r, d] · W[d, h]  +  Σ_{d<128} (Σ_{n<10000} adj[r, n] · x[n, d]) · W[128 + d, h]  +  b[h],  0 )

  — the self features against the upper half of the weights, the neighbourhood average against the lower half, the
  bias, the rectifier. Both programs compute it: the kernel as two products added, the reference as one product of the
  concatenated features [x ; adj·x] with the whole weight matrix; a sum over 256 terms is the sum of its two halves,
  which is all that separates them (`sum_halves`), and that needs no finiteness.
-/
import Idealize.ShloMosaic.PureOps.Ideal
import Idealize.ShloMosaic.Lib.ValueIdx

noncomputable section

open scoped BigOperators

namespace Cert.Gcn

open Idealize.ShloMosaic Idealize.ShloMosaic.ValueIdx

/-- The node features' shape, [10000, 128]. -/
abbrev SX : Shape := ⟨2, ![10000, 128]⟩
/-- The adjacency's shape, [10000, 10000]. -/
abbrev SA : Shape := ⟨2, ![10000, 10000]⟩
/-- The weights' shape, [256, 256]. -/
abbrev SW : Shape := ⟨2, ![256, 256]⟩
/-- The bias's shape, [256]. -/
abbrev SB : Shape := ⟨1, ![256]⟩
/-- The result's shape, [10000, 256]. -/
abbrev SO : Shape := ⟨2, ![10000, 256]⟩

/-- The floor the rectifier compares against: the f32 zero word, left unevaluated (both programs spell it so). -/
def floor0 : EReal := Ideal.ofBits .f32 0x00000000#32

/-- Row `d` of the weights' upper half. -/
def lo (d : Fin 128) : Fin 256 := ⟨d.val, by omega⟩
/-- Row `d` of the weights' lower half. -/
def hi (d : Fin 128) : Fin 256 := ⟨128 + d.val, by omega⟩

/-- The neighbourhood average of feature `d` at node `r`: row `r` of the adjacency against column `d` of the features. -/
def agg (x : FVec Ideal SX .f32) (adj : FVec Ideal SA .f32) (r : Fin 10000) (d : Fin 128) : EReal :=
  ∑ n : Fin 10000, adj (ix2 r n) * x (ix2 n d)

/-- The layer's pre-activation at node `r`, output feature `h`, as the kernel groups it: two sums of 128 terms. -/
def pre (x : FVec Ideal SX .f32) (adj : FVec Ideal SA .f32) (W : FVec Ideal SW .f32) (b : FVec Ideal SB .f32)
    (r : Fin 10000) (h : Fin 256) : EReal :=
  (∑ d : Fin 128, x (ix2 r d) * W (ix2 (lo d) h) + ∑ d : Fin 128, agg x adj r d * W (ix2 (hi d) h)) + b (ix1 h)

/-- The layer's result, every entry. -/
def out (x : FVec Ideal SX .f32) (adj : FVec Ideal SA .f32) (W : FVec Ideal SW .f32) (b : FVec Ideal SB .f32) :
    FVec Ideal SO .f32 :=
  fun j => max (pre x adj W b (j 0) (j 1)) floor0

theorem out_apply (x : FVec Ideal SX .f32) (adj : FVec Ideal SA .f32) (W : FVec Ideal SW .f32) (b : FVec Ideal SB .f32)
    (r : Fin 10000) (h : Fin 256) : out x adj W b (ix2 r h) = max (pre x adj W b r h) floor0 := rfl

/-- A sum over the 256 rows of the weights is the sum over the upper half plus the sum over the lower half: in any
    commutative monoid, so on the extended reals with their infinities too. -/
theorem sum_halves {M : Type} [AddCommMonoid M] (f : Fin 256 → M) :
    ∑ k : Fin 256, f k = ∑ d : Fin 128, f (lo d) + ∑ d : Fin 128, f (hi d) := by
  refine (Fin.sum_univ_add (a := 128) (b := 128) (f : Fin (128 + 128) → M)).trans ?_
  exact congrArg₂ (· + ·) (Finset.sum_congr rfl fun d _ => congrArg f (Fin.ext rfl))
    (Finset.sum_congr rfl fun d _ => congrArg f (Fin.ext rfl))

end Cert.Gcn

end
-- ==== Proof.Payload.lean ====
/-
  The kernel body's arithmetic at one grid point, read at an index, on the extended reals. For a block of 400 rows the
  stored value at row p, output feature q is

      max( Σ_{d<128} xs[p, d] · W1[d, q]  +  Σ_{d<128} (Σ_{n<10000} adjblk[p, n] · x[n, d]) · W2[d, q]  +  b[0, q],  0 )

  with the floor written as the unevaluated f32 zero word. Each of the three products accumulates into a zero splat, so
  it is the bare sum over its one contracted axis; the sum over the contraction's index set is re-indexed through that
  axis's coordinate.
-/
import proofs.«169192_g30348238914072_cont_9to1_1777_11_alg».proof.Proof.Gen.KernelIdeal.Skeleton
import proofs.«169192_g30348238914072_cont_9to1_1777_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Idealize.ShloMosaic Idealize.ShloMosaic.ValueIdx Idealize.SL.Sem

/-! ## The adjacency product: rows [400, 10000] against [10000, 128] -/

theorem lhs_adj_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_adj_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_adj_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_adj_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product of a [400, 10000] block with a [10000, 128] array into a zero accumulator, at row `p`, column `d`:
    the sum over the 10000 contracted positions. -/
theorem matmul_adj_apply (a : FVec Ideal S400x10000 .bf16) (b : FVec Ideal S10000x128 .bf16) (p : Fin 400) (d : Fin 128) :
    matmul (F := Ideal) dot_S400x10000_S10000x128_S400x128_1_0_0_1_n_n none a b (constant (F := Ideal) S400x128 .f32 0x00000000#32) (ix2 p d)
      = ∑ n : Fin 10000, a (ix2 p n) * b (ix2 n d) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p d) ((contrEquiv1 dot_S400x10000_S10000x128_S400x128_1_0_0_1_n_n 10000 rfl rfl).symm k) = ix2 p k := funext fun a => Fin.ext (by
    match a with
    | ⟨0, _⟩ => exact lhs_adj_0 _ _
    | ⟨1, _⟩ => exact (lhs_adj_1 _ _).trans hk)
  have er : dot_S400x10000_S10000x128_S400x128_1_0_0_1_n_n.rhsIdx (ix2 p d) ((contrEquiv1 dot_S400x10000_S10000x128_S400x128_1_0_0_1_n_n 10000 rfl rfl).symm k) = ix2 k d := funext fun a => Fin.ext (by
    match a with
    | ⟨0, _⟩ => exact (rhs_adj_0 _ _).trans hk
    | ⟨1, _⟩ => exact rhs_adj_1 _ _)
  rw [el, er]

/-! ## The weight products: rows [400, 128] against [128, 256] -/

theorem lhs_w_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem lhs_w_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
theorem rhs_w_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
theorem rhs_w_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- The product of a [400, 128] block with a [128, 256] array into a zero accumulator, at row `p`, column `q`:
    the sum over the 128 contracted positions. -/
theorem matmul_w_apply (a : FVec Ideal S400x128 .f32) (b : FVec Ideal S128x256 .f32) (p : Fin 400) (q : Fin 256) :
    matmul (F := Ideal) dot_S400x128_S128x256_S400x256_1_0_0_1_n_n none a b (constant (F := Ideal) S400x256 .f32 0x00000000#32) (ix2 p q)
      = ∑ d : Fin 128, a (ix2 p d) * b (ix2 d q) := by
  simp only [matmul]
  rw [Ideal.matmul_constant_zero_apply, ← Equiv.sum_comp (contrEquiv1 dot_S400x128_S128x256_S400x256_1_0_0_1_n_n 128 rfl rfl).symm]
  refine Finset.sum_congr rfl fun k _ => ?_
  have hk := contrEquiv1_symm_val dot_S400x128_S128x256_S400x256_1_0_0_1_n_n 128 rfl rfl k
  have el : dot_S400x128_S128x256_S400x256_1_0_0_1_n_n.lhsIdx (ix2 p q) ((contrEquiv1 dot_S400x128_S128x256_S400x256_1_0_0_1_n_n 128 rfl rfl).symm k) = ix2 p k := funext fun a => Fin.ext (by
    match a with
    | ⟨0, _⟩ => exact lhs_w_0 _ _
    | ⟨1, _⟩ => exact (lhs_w_1 _ _).trans hk)
  have er : dot_S400x128_S128x256_S400x256_1_0_0_1_n_n.rhsIdx (ix2 p q) ((contrEquiv1 dot_S400x128_S128x256_S400x256_1_0_0_1_n_n 128 rfl rfl).symm k) = ix2 k q := funext fun a => Fin.ext (by
    match a with
    | ⟨0, _⟩ => exact (rhs_w_0 _ _).trans hk
    | ⟨1, _⟩ => exact rhs_w_1 _ _)
  rw [el, er]

/-! ## The stored value at an index -/

/-- The block's stored value at row `p`, output feature `q`: the self features against the first weights plus the
    neighbourhood sums against the second weights, plus the bias, under the rectifier. The two narrowings to 16 bits
    are the identity on extended reals, the three same-shape casts are the identity, and the bias's one row is read
    on every row. -/
theorem pay_apply (v0 : Vec Ideal S400x10000 .f32) (v2 : Vec Ideal S10000x128 .f32) (v5 : Vec Ideal S400x128 .f32) (v6 : Vec Ideal S128x256 .f32) (v9 : Vec Ideal S128x256 .f32) (v13 : Vec Ideal S1x256 .f32) (p : Fin 400) (q : Fin 256) :
    Gen.k0_pay1 (F := Ideal) v0 v2 v5 v6 v9 v13 (ix2 p q)
      = max ((∑ d : Fin 128, v5 (ix2 p d) * v6 (ix2 d q) + ∑ d : Fin 128, (∑ n : Fin 10000, v0 (ix2 p n) * v2 (ix2 n d)) * v9 (ix2 d q)) + v13 (ix2 (0 : Fin 1) q)) Cert.Gcn.floor0 := by
  unfold Gen.k0_pay1
  show max ((matmul (F := Ideal) dot_S400x128_S128x256_S400x256_1_0_0_1_n_n none v5 (shapeCast S128x256 v6 _) (constant (F := Ideal) S400x256 .f32 0x00000000#32) (ix2 p q)
      + matmul (F := Ideal) dot_S400x128_S128x256_S400x256_1_0_0_1_n_n none
          (matmul (F := Ideal) dot_S400x10000_S10000x128_S400x128_1_0_0_1_n_n none (truncf .bf16 v0 _) (truncf .bf16 v2 _) (constant (F := Ideal) S400x128 .f32 0x00000000#32))
          (shapeCast S128x256 v9 _) (constant (F := Ideal) S400x256 .f32 0x00000000#32) (ix2 p q))
      + broadcastTo S400x256 (shapeCast S1x256 v13 _) _ (ix2 p q)) (Ideal.ofBits .f32 0x00000000#32) = _
  rw [shapeCast_self, shapeCast_self, shapeCast_self, matmul_w_apply, matmul_w_apply, broadcastTo_1b_ab_apply]
  simp only [matmul_adj_apply]
  rfl

end Cert.KernelIdeal.Pay

end
-- ==== Proof.KIValue.lean ====
/-
  What the kernel's result array holds after the run, at the ideal instance: the layer's result `Cert.Gcn.out` of the
  four argument arrays, every entry.

  Point t of the grid writes back rows 400t … 400t+399. Its body's one store is the payload of the six loaded blocks,
  and (the payload module's `pay_apply`) entry (p, q) of that payload is
      max( Σ_d xs[p,d]·W1[d,q] + Σ_d (Σ_n adjblk[p,n]·x[n,d])·W2[d,q] + b[0,q], 0 ).
  Read through the windows, xs[p,d] is x[400t+p, d], adjblk[p,n] is adj[400t+p, n], the third window is all of x, W1 and
  W2 are the host's two slices of the weights — rows d and 128+d — and the bias block is the host's reshape of b. So the
  block written back at point t is block t of `Cert.Gcn.out`; the 25 blocks tile the 10000 rows; hence the array.
-/
import proofs.«169192_g30348238914072_cont_9to1_1777_11_alg».proof.Proof.KIFrame
import proofs.«169192_g30348238914072_cont_9to1_1777_11_alg».proof.Proof.Payload
import proofs.«169192_g30348238914072_cont_9to1_1777_11_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL.Sem
open Idealize.ShloMosaic.Pipeline (Dat)
open Cert.Gcn (lo hi)

variable (m : (ℓ : Loc nD τ sig) → Buf (Elt Ideal) ℓ) (ρ : Dev nD → PrngReg)

/-! ## The argument arrays, by their literal types -/

/-- The node features as launched. -/
abbrev xArr (c : Dev nD) : FVec Ideal S10000x128 .f32 := m ((c : Thread nD τ).loc main_arg0)
/-- The adjacency as launched. -/
abbrev aArr (c : Dev nD) : FVec Ideal S10000x10000 .f32 := m ((c : Thread nD τ).loc main_arg1)
/-- The weights as launched. -/
abbrev wArr (c : Dev nD) : FVec Ideal S256x256 .f32 := m ((c : Thread nD τ).loc main_arg2)
/-- The bias as launched. -/
abbrev bArr (c : Dev nD) : FVec Ideal S256 .f32 := m ((c : Thread nD τ).loc main_arg3)

/-- The layer's result of the launched arguments. -/
abbrev res (c : Dev nD) : FVec Ideal S10000x256 .f32 := Cert.Gcn.out (xArr m c) (aArr m c) (wArr m c) (bArr m c)

theorem hz : (![0, 0] : Fin 2 → Nat) = fun _ => 0 := funext fun a => by fin_cases a <;> rfl

/-! ## The arrays the host operations wrote before the region -/

/-- The upper half of the weights: the host's slice at row offset 0. -/
theorem V_v0 (c : Dev nD) : (V m c main_v0 : FVec Ideal S128x256 .f32)
    = extractStridedSlice S128x256 ![0, 0] (wArr m c) Facts₀.slices_S256x256_S128x256_0_0 := by
  dsimp only [V, hostOps0]; after_results

/-- The lower half of the weights: the host's slice at row offset 128. -/
theorem V_v1 (c : Dev nD) : (V m c main_v1 : FVec Ideal S128x256 .f32)
    = extractStridedSlice S128x256 ![128, 0] (wArr m c) Facts₀.slices_S256x256_S128x256_128_0 := by
  dsimp only [V, hostOps0]; after_results

/-- The bias as a row: the host's reshape. -/
theorem V_v2 (c : Dev nD) : (V m c main_v2 : FVec Ideal S1x256 .f32)
    = shapeCast S1x256 (bArr m c) Facts₀.shapeCasts_S256_S1x256 := by
  dsimp only [V, hostOps0]; after_results; rfl

/-! ## The printed index maps, decided once over the 25 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `400 t + p` of the array. -/
def row (t : Fin cfg0.N) (p : Fin 400) : Fin 10000 := ⟨400 * t.val + p.val, by
  have h : t.val < 25 := lt_of_lt_of_eq t.isLt (show cfg0.N = 25 from N_0)
  have := p.isLt; omega⟩

/-! ## Each window's block, read at coordinates -/

/-- The features' row block: rows 400t … 400t+399. -/
theorem blk0_apply (c : Dev nD) (t : Fin cfg0.N) (p : Fin 400) (d : Fin 128) :
    iblk m c 0 t (ix2 p d) = V m c main_arg0 (ix2 (row t p) d) := by
  obtain ⟨e00, e01, e10, e11, e20, e21, e30, e31, e40, e41, e50, e51, e60, e61⟩ := idx_facts t
  show V m c main_arg0 (((cfg0.win 0).blk t).view.emb (ix2 p d)) = V m c main_arg0 _
  refine congrArg _ (funext fun a => Fin.ext ?_)
  match a with
  | ⟨0, _⟩ => show win0_0.index t (0 : Fin 2) * 400 + 1 * p.val = 400 * t.val + p.val; omega
  | ⟨1, _⟩ => show win0_0.index t (1 : Fin 2) * 128 + 1 * d.val = d.val; omega

/-- The adjacency's row block: rows 400t … 400t+399, every column. -/
theorem blk1_apply (c : Dev nD) (t : Fin cfg0.N) (p : Fin 400) (n : Fin 10000) :
    iblk m c 1 t (ix2 p n) = V m c main_arg1 (ix2 (row t p) n) := by
  obtain ⟨e00, e01, e10, e11, e20, e21, e30, e31, e40, e41, e50, e51, e60, e61⟩ := idx_facts t
  show V m c main_arg1 (((cfg0.win 1).blk t).view.emb (ix2 p n)) = V m c main_arg1 _
  refine congrArg _ (funext fun a => Fin.ext ?_)
  match a with
  | ⟨0, _⟩ => show win0_1.index t (0 : Fin 2) * 400 + 1 * p.val = 400 * t.val + p.val; omega
  | ⟨1, _⟩ => show win0_1.index t (1 : Fin 2) * 10000 + 1 * n.val = n.val; omega

/-- The third window is the whole feature array, at every point. -/
theorem blk2_apply (c : Dev nD) (t : Fin cfg0.N) (n : Fin 10000) (d : Fin 128) :
    iblk m c 2 t (ix2 n d) = V m c main_arg0 (ix2 n d) := by
  obtain ⟨e00, e01, e10, e11, e20, e21, e30, e31, e40, e41, e50, e51, e60, e61⟩ := idx_facts t
  show V m c main_arg0 (((cfg0.win 2).blk t).view.emb (ix2 n d)) = V m c main_arg0 _
  refine congrArg _ (funext fun a => Fin.ext ?_)
  match a with
  | ⟨0, _⟩ => show win0_2.index t (0 : Fin 2) * 10000 + 1 * n.val = n.val; omega
  | ⟨1, _⟩ => show win0_2.index t (1 : Fin 2) * 128 + 1 * d.val = d.val; omega

/-- The fourth window is the whole upper half of the weights: row `d` of it is row `d` of the weights. -/
theorem blk3_apply (c : Dev nD) (t : Fin cfg0.N) (d : Fin 128) (q : Fin 256) :
    iblk m c 3 t (ix2 d q) = wArr m c (ix2 (lo d) q) := by
  have h : iblk m c 3 t (ix2 d q) = V m c main_v0 (ix2 d q) := by
    obtain ⟨e00, e01, e10, e11, e20, e21, e30, e31, e40, e41, e50, e51, e60, e61⟩ := idx_facts t
    show V m c main_v0 (((cfg0.win 3).blk t).view.emb (ix2 d q)) = V m c main_v0 _
    refine congrArg _ (funext fun a => Fin.ext ?_)
    match a with
    | ⟨0, _⟩ => show win0_3.index t (0 : Fin 2) * 128 + 1 * d.val = d.val; omega
    | ⟨1, _⟩ => show win0_3.index t (1 : Fin 2) * 256 + 1 * q.val = q.val; omega
  rw [h, V_v0]
  exact extractStridedSlice_apply _ _ _ _ (ix2 (lo d) q) (fun a => by
    match a with
    | ⟨0, _⟩ => show d.val = 0 + d.val; omega
    | ⟨1, _⟩ => show q.val = 0 + q.val; omega)

/-- The fifth window is the whole lower half of the weights: row `d` of it is row `128 + d` of the weights. -/
theorem blk4_apply (c : Dev nD) (t : Fin cfg0.N) (d : Fin 128) (q : Fin 256) :
    iblk m c 4 t (ix2 d q) = wArr m c (ix2 (hi d) q) := by
  have h : iblk m c 4 t (ix2 d q) = V m c main_v1 (ix2 d q) := by
    obtain ⟨e00, e01, e10, e11, e20, e21, e30, e31, e40, e41, e50, e51, e60, e61⟩ := idx_facts t
    show V m c main_v1 (((cfg0.win 4).blk t).view.emb (ix2 d q)) = V m c main_v1 _
    refine congrArg _ (funext fun a => Fin.ext ?_)
    match a with
    | ⟨0, _⟩ => show win0_4.index t (0 : Fin 2) * 128 + 1 * d.val = d.val; omega
    | ⟨1, _⟩ => show win0_4.index t (1 : Fin 2) * 256 + 1 * q.val = q.val; omega
  rw [h, V_v1]
  exact extractStridedSlice_apply _ _ _ _ (ix2 (hi d) q) (fun a => by
    match a with
    | ⟨0, _⟩ => show 128 + d.val = 128 + d.val; rfl
    | ⟨1, _⟩ => show q.val = 0 + q.val; omega)

/-- The sixth window is the bias as a row. -/
theorem blk5_apply (c : Dev nD) (t : Fin cfg0.N) (q : Fin 256) :
    iblk m c 5 t (ix2 (0 : Fin 1) q) = bArr m c (ix1 q) := by
  have h : iblk m c 5 t (ix2 (0 : Fin 1) q) = V m c main_v2 (ix2 (0 : Fin 1) q) := by
    obtain ⟨e00, e01, e10, e11, e20, e21, e30, e31, e40, e41, e50, e51, e60, e61⟩ := idx_facts t
    show V m c main_v2 (((cfg0.win 5).blk t).view.emb (ix2 (0 : Fin 1) q)) = V m c main_v2 _
    refine congrArg _ (funext fun a => Fin.ext ?_)
    match a with
    | ⟨0, _⟩ => show win0_5.index t (0 : Fin 2) * 1 + 1 * (0 : Fin 1).val = 0; omega
    | ⟨1, _⟩ => show win0_5.index t (1 : Fin 2) * 256 + 1 * q.val = q.val; omega
  rw [h, V_v2]
  exact shapeCast_apply _ _ _ (ix1 q) (by
    rw [Shape.rowMajor_val_one, Shape.rowMajor_val_two]
    show q.val = 0 * 256 + q.val
    omega)

/-! ## What point `t` writes back -/

/-- Point `t`'s write-back is block `t` of the layer's result. -/
theorem flushed_eq (c : Dev nD) (t : Fin cfg0.N) :
    (dats m 0 c).flushed 6 t = ((cfg0.win 6).blk t).view.read (Elt Ideal) (res m c) := by
  show (cfg0.win 6).cut (grid0.coords t) ((dats m 0 c).after 6 t) = _
  rw [after6]
  unfold outBlk
  rw [View.canon_unit_zero hz]
  simp only [View.ld_unit_zero (S := S400x128) hz, View.ld_unit_zero (S := S400x10000) hz, View.ld_unit_zero (S := S10000x128) hz,
    View.ld_unit_zero (S := S128x256) hz, View.ld_unit_zero (S := S1x256) hz]
  funext j
  obtain ⟨p, q, rfl⟩ : ∃ (p : Fin 400) (q : Fin 256), j = ix2 p q := ⟨j 0, j 1, eq_ix2 j⟩
  have hr : ((cfg0.win 6).blk t).view.read (Elt Ideal) (res m c) (ix2 p q) = res m c (ix2 (row t p) q) := by
    obtain ⟨e00, e01, e10, e11, e20, e21, e30, e31, e40, e41, e50, e51, e60, e61⟩ := idx_facts t
    show res m c (((cfg0.win 6).blk t).view.emb (ix2 p q)) = res m c _
    refine congrArg _ (funext fun a => Fin.ext ?_)
    match a with
    | ⟨0, _⟩ => show win0_6.index t (0 : Fin 2) * 400 + 1 * p.val = 400 * t.val + p.val; omega
    | ⟨1, _⟩ => show win0_6.index t (1 : Fin 2) * 256 + 1 * q.val = q.val; omega
  rw [hr]
  refine (Pay.pay_apply (iblk m c 1 t) (iblk m c 2 t) (iblk m c 0 t) (iblk m c 3 t) (iblk m c 4 t) (iblk m c 5 t) p q).trans ?_
  simp only [blk0_apply, blk1_apply, blk2_apply, blk3_apply, blk4_apply, blk5_apply, V_main_arg0, V_main_arg1]
  rfl

/-! ## The cover, and the array -/

/-- An index of the result array is in point `t`'s block iff its row is in 400t … 400t+399. -/
theorem mem_blk (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v3).slice (win0_6.rect t)).set ↔ _
  rw [View.set_slice_whole, Rect.mem_set_unit]
  exact Iff.rfl

/-- Every row lies in the block of point `row / 400`, which writes back. -/
theorem cover (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  let t : Fin cfg0.N := ⟨(i 0).val / 400, lt_of_lt_of_eq (by omega : (i 0).val / 400 < 25) (show cfg0.N = 25 from N_0).symm⟩
  obtain ⟨e00, e01, e10, e11, e20, e21, e30, e31, e40, e41, e50, e51, e60, e61⟩ := idx_facts t
  refine ⟨t, flush0_6 t, ?_⟩
  rw [mem_blk]
  intro a
  have ht : t.val = (i 0).val / 400 := rfl
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 256 ≤ (i 1).val ∧ (i 1).val < win0_6.index t (1 : Fin 2) * 256 + 256; omega

/-- The result array after the last write-back is the layer's result of the launched arguments. -/
theorem final (c : Dev nD) : (dats m 0 c).arrAt 6 cfg0.N = res m c :=
  (dats m 0 c).arrAt_eq_of_cover 6 (res m c) (fun t _ => flushed_eq m c t) cover

/-! ## The run, read -/

/-- Every weakly fair execution of the idealized kernel's @main terminates with the result array at the layer's result
    of the launched arguments and the four arguments unchanged. -/
theorem run : θ_run defs (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Val

end
-- ==== Proof.RefRun.lean ====
/-
  The reference's host program read back: its run and the per-operation read lemmas are imported here so that the
  value modules of this directory can cite them.
-/
import proofs.«169192_g30348238914072_cont_9to1_1777_11_alg».proof.Proof.Gen.ReferenceIdeal.Run
import proofs.«169192_g30348238914072_cont_9to1_1777_11_alg».proof.Proof.Gen.ReferenceIdeal.Read
-- ==== Proof.RefValue.lean ====
/-
  The reference's result, index by index, is the layer of the specification.

  The reference multiplies the concatenated features [x ; adj·x] (256 columns) against the whole weight matrix, adds
  the bias broadcast along the rows, and takes the maximum with zero. Read at row `r`, column `h`:

      max( Σ_{k<256} [x ; adj·x][r, k] · W[k, h]  +  b[h],  0 ).

  A sum over the 256 columns is the sum over the first 128 plus the sum over the last 128. Column `d` of the
  concatenation is `x[r, d]`; column `128 + d` is `(adj·x)[r, d] = Σ_n adj[r, n] · x[n, d]`, the neighbourhood
  average. That is the specification's pre-activation term by term, so nothing about finiteness is used.
-/
import proofs.«169192_g30348238914072_cont_9to1_1777_11_alg».proof.Proof.RefRun
import proofs.«169192_g30348238914072_cont_9to1_1777_11_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Gcn

/-! ## The index functions of the two products and of the bias, in coordinates -/

/-- The first product reads the adjacency at row `r`, column `n`. -/
theorem lidx_v0 (r : Fin 10000) (d : Fin 128) (n : Fin 10000) : lidx_main_v0 (ix2 r d) n = ix2 r n := by
  funext a
  match a with
  | ⟨0, _⟩ => rfl
  | ⟨1, _⟩ => rfl

/-- … and the features at row `n`, column `d`. -/
theorem ridx_v0 (r : Fin 10000) (d : Fin 128) (n : Fin 10000) : ridx_main_v0 (ix2 r d) n = ix2 n d := by
  funext a
  match a with
  | ⟨0, _⟩ => rfl
  | ⟨1, _⟩ => rfl

/-- The second product reads the concatenated features at row `r`, column `k`. -/
theorem lidx_v2 (r : Fin 10000) (h k : Fin 256) : lidx_main_v2 (ix2 r h) k = ix2 r k := by
  funext a
  match a with
  | ⟨0, _⟩ => rfl
  | ⟨1, _⟩ => rfl

/-- … and the weights at row `k`, column `h`. -/
theorem ridx_v2 (r : Fin 10000) (h k : Fin 256) : ridx_main_v2 (ix2 r h) k = ix2 k h := by
  funext a
  match a with
  | ⟨0, _⟩ => rfl
  | ⟨1, _⟩ => rfl

/-- The bias, broadcast twice, is read at the column. -/
theorem idx_bias (r : Fin 10000) (h : Fin 256) : idx_main_v3 (idx_main_v4 (ix2 r h)) = ix1 h := by
  funext a
  match a with
  | ⟨0, _⟩ => rfl

/-! ## The stages at an index -/

/-- The neighbourhood product at row `r`, feature `d`, is the specification's average. -/
theorem agg_eq (x0 : (⟨S10000x128, .f32⟩ : BufTy).Contents (Elt Ideal)) (x1 : (⟨S10000x10000, .f32⟩ : BufTy).Contents (Elt Ideal))
    (r : Fin 10000) (d : Fin 128) : val_main_v0 (F := Ideal) x0 x1 (ix2 r d) = agg x0 x1 r d := by
  rw [val_main_v0_apply]
  unfold agg
  refine Finset.sum_congr rfl fun n _ => ?_
  rw [lidx_v0, ridx_v0]

/-- A column of the concatenation below 128 is the same column of the features. -/
theorem cat_lo (x0 : (⟨S10000x128, .f32⟩ : BufTy).Contents (Elt Ideal)) (x1 : (⟨S10000x10000, .f32⟩ : BufTy).Contents (Elt Ideal))
    (r : Fin 10000) (d : Fin 128) : val_main_v1 (F := Ideal) x0 x1 (ix2 r (lo d)) = x0 (ix2 r d) := by
  unfold val_main_v1
  exact concatenate_pair_apply_left (1 : Fin S10000x256.rank) x0 (val_main_v0 (F := Ideal) x0 x1)
    concatenates_S10000x128_S10000x128_S10000x256_d1 (ix2 r (lo d)) rfl (ix2 r d) (fun b =>
      match b with
      | ⟨0, _⟩ => rfl
      | ⟨1, _⟩ => rfl)

/-- Column `128 + d` of the concatenation is column `d` of the neighbourhood product. -/
theorem cat_hi (x0 : (⟨S10000x128, .f32⟩ : BufTy).Contents (Elt Ideal)) (x1 : (⟨S10000x10000, .f32⟩ : BufTy).Contents (Elt Ideal))
    (r : Fin 10000) (d : Fin 128) :
    val_main_v1 (F := Ideal) x0 x1 (ix2 r (hi d)) = val_main_v0 (F := Ideal) x0 x1 (ix2 r d) := by
  unfold val_main_v1
  exact concatenate_pair_apply_right (1 : Fin S10000x256.rank) x0 (val_main_v0 (F := Ideal) x0 x1)
    concatenates_S10000x128_S10000x128_S10000x256_d1 (ix2 r (hi d)) rfl rfl (ix2 r d) (fun b =>
      match b with
      | ⟨0, _⟩ => fun _ => rfl
      | ⟨1, _⟩ => fun hb => absurd rfl hb)
    (show d.val + 128 = 128 + d.val from Nat.add_comm _ _)

/-- The product of the concatenated features with the weights, split at column 128. -/
theorem dot_eq (x0 : (⟨S10000x128, .f32⟩ : BufTy).Contents (Elt Ideal)) (x1 : (⟨S10000x10000, .f32⟩ : BufTy).Contents (Elt Ideal))
    (x2 : (⟨S256x256, .f32⟩ : BufTy).Contents (Elt Ideal)) (r : Fin 10000) (h : Fin 256) :
    val_main_v2 (F := Ideal) x0 x1 x2 (ix2 r h)
      = ∑ d : Fin 128, x0 (ix2 r d) * x2 (ix2 (lo d) h) + ∑ d : Fin 128, agg x0 x1 r d * x2 (ix2 (hi d) h) := by
  rw [val_main_v2_apply, sum_halves]
  congr 1
  · refine Finset.sum_congr rfl fun d _ => ?_
    rw [lidx_v2, ridx_v2, cat_lo]
  · refine Finset.sum_congr rfl fun d _ => ?_
    rw [lidx_v2, ridx_v2, cat_hi, agg_eq]

/-- The broadcast bias at row `r`, column `h`, is `b[h]`. -/
theorem bias_eq (x3 : (⟨S256, .f32⟩ : BufTy).Contents (Elt Ideal)) (r : Fin 10000) (h : Fin 256) :
    val_main_v4 (F := Ideal) x3 (ix2 r h) = x3 (ix1 h) := by
  rw [val_main_v4_apply, val_main_v3_apply, idx_bias]

/-- The broadcast zero is the specification's floor everywhere. -/
theorem zero_eq (j : S10000x256.Idx) : val_main_call0_v0 (F := Ideal) j = floor0 := by
  rw [val_main_call0_v0_apply, val_main_call0_cst_apply, Ideal.ofBits_def]
  rfl

/-! ## The result -/

/-- The reference's result is the specification's layer. -/
theorem ref_out (x0 : (⟨Cert.ReferenceIdeal.S10000x128, .f32⟩ : BufTy).Contents (Elt Ideal)) (x1 : (⟨Cert.ReferenceIdeal.S10000x10000, .f32⟩ : BufTy).Contents (Elt Ideal)) (x2 : (⟨Cert.ReferenceIdeal.S256x256, .f32⟩ : BufTy).Contents (Elt Ideal)) (x3 : (⟨Cert.ReferenceIdeal.S256, .f32⟩ : BufTy).Contents (Elt Ideal)) :
    Cert.ReferenceIdeal.Read.val_main_v6 (F := Ideal) x0 x1 x2 x3 = Cert.Gcn.out x0 x1 x2 x3 := by
  funext j
  obtain ⟨r, h, rfl⟩ : ∃ (r : Fin 10000) (h : Fin 256), j = ix2 r h := ⟨j 0, j 1, eq_ix2 j⟩
  rw [out_apply, val_main_v6_apply, val_main_v5_apply, dot_eq, bias_eq, zero_eq, Ideal.maximumf_def, Ideal.addf_def]
  rfl

end Cert.ReferenceIdeal.RefValue

end
-- ==== Proof.lean ====
/-
  A graph-convolution layer with a dense row-normalised adjacency,

      out = relu( [x ; adj·x] · W + b ),      x : [10000, 128],  adj : [10000, 10000],  W : [256, 256],  b : [256],

  computed by one fused kernel over 25 blocks of 400 rows, against the plain reference. Over the extended reals the two
  agree entry by entry:

      out[r, h] = max( Σ_{d<128} x[r,d]·W[d,h] + Σ_{d<128} (Σ_n adj[r,n]·x[n,d])·W[128+d,h] + b[h], 0 ).

  The kernel forms the two sums of 128 products separately (the self features against the upper half of the weights,
  the neighbourhood average against the lower half) and adds them; the reference forms ONE sum of 256 products of the
  concatenated features with the weights. A sum over 256 terms is the sum of its halves in any commutative monoid, so
  no finiteness of the inputs is used. The kernel's truncation of the adjacency and the features to a shorter format
  is the identity at the ideal instance; each matrix product into a zero accumulator is the plain sum.

  The pieces: `Spec` states the layer once and the sum law; `RefValue` reads the reference's run at an index;
  `Payload` reads the kernel body's arithmetic at an index; `KIFrame` / `KFrame` run the pipelined region (the feature
  array reaches it through two input windows, which share it in halves) for the idealized and the word-level program;
  `KIValue` turns the 25 written-back blocks into the whole result array. The idealization rewrote nothing, so the
  `preserves` conjunct is trivial.
-/
import proofs.«169192_g30348238914072_cont_9to1_1777_11_alg».proof.Defs
import proofs.«169192_g30348238914072_cont_9to1_1777_11_alg».proof.Proof.KFrame
import proofs.«169192_g30348238914072_cont_9to1_1777_11_alg».proof.Proof.KIValue
import proofs.«169192_g30348238914072_cont_9to1_1777_11_alg».proof.Proof.RefValue
import proofs.«169192_g30348238914072_cont_9to1_1777_11_alg».proof.Proof.Gen.Pre_finite_inputs

noncomputable section

namespace Cert.Proof

open Idealize.ShloMosaic Idealize.SL.Sem

/-- The word-level kernel's program runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the four arguments both programs end with the layer's result of those arguments: the
    kernel by its 25 blocks, the reference by its run read at an index; the two are one function. -/
theorem algebraic : Cert.algebraic_KernelIdeal_ReferenceIdeal := by
  intro m ρ m' ρ' _ hagree
  refine ⟨fun c => Cert.KernelIdeal.Val.res m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
